-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S640000x128 : Shape := ⟨2, ![640000, 128]⟩
abbrev S640000 : Shape := ⟨1, ![640000]⟩
abbrev S256x384 : Shape := ⟨2, ![256, 384]⟩
abbrev S256 : Shape := ⟨1, ![256]⟩
abbrev S1x256 : Shape := ⟨2, ![1, 256]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S256x384 : S_.BroadcastsInDim S256x384 (![] : Fin 0 → Fin S256x384.rank)
  reducesTo_S256x384_S_d0_1 : S256x384.ReducesTo [0, 1] S_
  bcast_S_S256 : S_.BroadcastsInDim S256 (![] : Fin 0 → Fin S256.rank)
  reducesTo_S256_S_d0 : S256.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_
  bcast_S_S640000 : S_.BroadcastsInDim S640000 (![] : Fin 0 → Fin S640000.rank)
  reducesTo_S640000_S_d0 : S640000.ReducesTo [0] S_

variable [Facts]

def fn_part2 {F : FTy → Type} [FloatOps F] (main_arg3 : IVec S640000 32) (main_v28 : IVec S_ 1) (main_v33 : IVec S640000 1) : IVec S_ 1 :=
  let main_c_12 : IVec S_ 1 := constantI S_ 1 1#1
  let main_v34 : IVec S_ 1 := (fun x v => Host.reduce IntOp.andi x v reducesTo_S640000_S_d0 h_S_) main_v33 main_c_12
  let main_v35 : IVec S_ 1 := andi main_v28 main_v34
  let main_c_13 : IVec S_ 32 := constantI S_ 32 4294917296#32
  let main_v36 : IVec S640000 32 := broadcastInDim S640000 ![] bcast_S_S640000 main_c_13
  let main_v37 : IVec S640000 1 := cmpi .sge main_arg3 main_v36
  let main_c_14 : IVec S_ 32 := constantI S_ 32 50000#32
  let main_v38 : IVec S640000 32 := broadcastInDim S640000 ![] bcast_S_S640000 main_c_14
  let main_v39 : IVec S640000 1 := cmpi .slt main_arg3 main_v38
  let main_v40 : IVec S640000 1 := andi main_v37 main_v39
  let main_c_15 : IVec S_ 1 := constantI S_ 1 1#1
  let main_v41 : IVec S_ 1 := (fun x v => Host.reduce IntOp.andi x v reducesTo_S640000_S_d0 h_S_) main_v40 main_c_15
  let main_v42 : IVec S_ 1 := andi main_v35 main_v41
  main_v42

def fn_part1 {F : FTy → Type} [FloatOps F] (main_arg2 : IVec S640000 32) (main_arg3 : IVec S640000 32) (main_arg6 : FVec F S1x256 .f32) (main_arg7 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S1x256 .f32 := Host.absf main_arg6
  let main_cst_6 : FVec F S_ .f32 := constant S_ .f32 0x7F800000#32
  let main_v20 : FVec F S1x256 .f32 := broadcastInDim S1x256 ![] bcast_S_S1x256 main_cst_6
  let main_v21 : IVec S1x256 1 := cmpf .olt main_v19 main_v20
  let main_c_7 : IVec S_ 1 := constantI S_ 1 1#1
  let main_v22 : IVec S_ 1 := (fun x v => Host.reduce IntOp.andi x v reducesTo_S1x256_S_d0_1 h_S_) main_v21 main_c_7
  let main_v23 : IVec S_ 1 := andi main_v18 main_v22
  let main_v24 : FVec F S1 .f32 := Host.absf main_arg7
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_c_10 : IVec S_ 32 := constantI S_ 32 4294917296#32
  let main_v29 : IVec S640000 32 := broadcastInDim S640000 ![] bcast_S_S640000 main_c_10
  let main_v30 : IVec S640000 1 := cmpi .sge main_arg2 main_v29
  let main_c_11 : IVec S_ 32 := constantI S_ 32 50000#32
  let main_v31 : IVec S640000 32 := broadcastInDim S640000 ![] bcast_S_S640000 main_c_11
  let main_v32 : IVec S640000 1 := cmpi .slt main_arg2 main_v31
  let main_v33 : IVec S640000 1 := andi main_v30 main_v32
  fn_part2 (F := F) main_arg3 main_v28 main_v33

def fn {F : FTy → Type} [FloatOps F] (main_arg0 : FVec F S50000x128 .f32) (main_arg1 : FVec F S640000x128 .f32) (main_arg2 : IVec S640000 32) (main_arg3 : IVec S640000 32) (main_arg4 : FVec F S256x384 .f32) (main_arg5 : FVec F S256 .f32) (main_arg6 : FVec F S1x256 .f32) (main_arg7 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S640000x128 .f32 := Host.absf main_arg1
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S256x384 .f32 := Host.absf main_arg4
  let main_cst_2 : FVec F S_ .f32 := constant S_ .f32 0x7F800000#32
  let main_v10 : FVec F S256x384 .f32 := broadcastInDim S256x384 ![] bcast_S_S256x384 main_cst_2
  let main_v11 : IVec S256x384 1 := cmpf .olt main_v9 main_v10
  let main_c_3 : IVec S_ 1 := constantI S_ 1 1#1
  let main_v12 : IVec S_ 1 := (fun x v => Host.reduce IntOp.andi x v reducesTo_S256x384_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg2 main_arg3 main_arg6 main_arg7 main_v13 main_v16
-- ==== Kernel.lean ====
abbrev S50000x128 : Shape := ⟨2, ![50000, 128]⟩
abbrev S640000x128 : Shape := ⟨2, ![640000, 128]⟩
abbrev S640000 : Shape := ⟨1, ![640000]⟩
abbrev S256x384 : Shape := ⟨2, ![256, 384]⟩
abbrev S256 : Shape := ⟨1, ![256]⟩
abbrev S1x256 : Shape := ⟨2, ![1, 256]⟩
abbrev S1 : Shape := ⟨1, ![1]⟩
abbrev S_ : Shape := ⟨0, ![]⟩
abbrev S640000x1 : Shape := ⟨2, ![640000, 1]⟩
abbrev S1x1 : Shape := ⟨2, ![1, 1]⟩
abbrev S384x256 : Shape := ⟨2, ![384, 256]⟩
abbrev S256x1 : Shape := ⟨2, ![256, 1]⟩
abbrev S641024x128 : Shape := ⟨2, ![641024, 128]⟩
abbrev S641024x1 : Shape := ⟨2, ![641024, 1]⟩
abbrev S2048x128 : Shape := ⟨2, ![2048, 128]⟩
abbrev S2048x1 : Shape := ⟨2, ![2048, 1]⟩
abbrev S2048x384 : Shape := ⟨2, ![2048, 384]⟩
abbrev S2048x256 : Shape := ⟨2, ![2048, 256]⟩

abbrev nBuf : Space → Nat
  | .hbm => 69
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S640000x128, .f32⟩
  | .hbm, ⟨2, _⟩ => ⟨S640000, .i32⟩
  | .hbm, ⟨3, _⟩ => ⟨S640000, .i32⟩
  | .hbm, ⟨4, _⟩ => ⟨S256x384, .f32⟩
  | .hbm, ⟨5, _⟩ => ⟨S256, .f32⟩
  | .hbm, ⟨6, _⟩ => ⟨S1x256, .f32⟩
  | .hbm, ⟨7, _⟩ => ⟨S1, .f32⟩
  | .hbm, ⟨8, _⟩ => ⟨S_, .i32⟩
  | .hbm, ⟨9, _⟩ => ⟨S640000, .i32⟩
  | .hbm, ⟨10, _⟩ => ⟨S640000, .i1⟩
  | .hbm, ⟨11, _⟩ => ⟨S_, .i32⟩
  | .hbm, ⟨12, _⟩ => ⟨S640000, .i32⟩
  | .hbm, ⟨13, _⟩ => ⟨S640000, .i32⟩
  | .hbm, ⟨14, _⟩ => ⟨S640000, .i32⟩
  | .hbm, ⟨15, _⟩ => ⟨S640000x1, .i32⟩
  | .hbm, ⟨16, _⟩ => ⟨S1, .i32⟩
  | .hbm, ⟨17, _⟩ => ⟨S_, .i32⟩
  | .hbm, ⟨18, _⟩ => ⟨S640000x1, .i32⟩
  | .hbm, ⟨19, _⟩ => ⟨S640000x1, .i1⟩
  | .hbm, ⟨20, _⟩ => ⟨S1x1, .i32⟩
  | .hbm, ⟨21, _⟩ => ⟨S640000x1, .i32⟩
  | .hbm, ⟨22, _⟩ => ⟨S640000x1, .i1⟩
  | .hbm, ⟨23, _⟩ => ⟨S640000x1, .i1⟩
  | .hbm, ⟨24, _⟩ => ⟨S_, .i1⟩
  | .hbm, ⟨25, _⟩ => ⟨S640000, .i1⟩
  | .hbm, ⟨26, _⟩ => ⟨S640000x128, .f32⟩
  | .hbm, ⟨27, _⟩ => ⟨S640000x128, .i1⟩
  | .hbm, ⟨28, _⟩ => ⟨S_, .f32⟩
  | .hbm, ⟨29, _⟩ => ⟨S640000x128, .f32⟩
  | .hbm, ⟨30, _⟩ => ⟨S640000x128, .f32⟩
  | .hbm, ⟨31, _⟩ => ⟨S_, .i32⟩
  | .hbm, ⟨32, _⟩ => ⟨S640000, .i32⟩
  | .hbm, ⟨33, _⟩ => ⟨S640000, .i1⟩
  | .hbm, ⟨34, _⟩ => ⟨S_, .i32⟩
  | .hbm, ⟨35, _⟩ => ⟨S640000, .i32⟩
  | .hbm, ⟨36, _⟩ => ⟨S640000, .i32⟩
  | .hbm, ⟨37, _⟩ => ⟨S640000, .i32⟩
  | .hbm, ⟨38, _⟩ => ⟨S640000x1, .i32⟩
  | .hbm, ⟨39, _⟩ => ⟨S1, .i32⟩
  | .hbm, ⟨40, _⟩ => ⟨S_, .i32⟩
  | .hbm, ⟨41, _⟩ => ⟨S640000x1, .i32⟩
  | .hbm, ⟨42, _⟩ => ⟨S640000x1, .i1⟩
  | .hbm, ⟨43, _⟩ => ⟨S1x1, .i32⟩
  | .hbm, ⟨44, _⟩ => ⟨S640000x1, .i32⟩
  | .hbm, ⟨45, _⟩ => ⟨S640000x1, .i1⟩
  | .hbm, ⟨46, _⟩ => ⟨S640000x1, .i1⟩
  | .hbm, ⟨47, _⟩ => ⟨S_, .i1⟩
  | .hbm, ⟨48, _⟩ => ⟨S640000, .i1⟩
  | .hbm, ⟨49, _⟩ => ⟨S640000x128, .f32⟩
  | .hbm, ⟨50, _⟩ => ⟨S640000x128, .i1⟩
  | .hbm, ⟨51, _⟩ => ⟨S_, .f32⟩
  | .hbm, ⟨52, _⟩ => ⟨S640000x128, .f32⟩
  | .hbm, ⟨53, _⟩ => ⟨S640000x128, .f32⟩
  | .hbm, ⟨54, _⟩ => ⟨S384x256, .f32⟩
  | .hbm, ⟨55, _⟩ => ⟨S256x1, .f32⟩
  | .hbm, ⟨56, _⟩ => ⟨S1x256, .f32⟩
  | .hbm, ⟨57, _⟩ => ⟨S1x1, .f32⟩
  | .hbm, ⟨58, _⟩ => ⟨S_, .i32⟩
  | .hbm, ⟨59, _⟩ => ⟨S_, .f32⟩
  | .hbm, ⟨60, _⟩ => ⟨S641024x128, .f32⟩
  | .hbm, ⟨61, _⟩ => ⟨S_, .i32⟩
  | .hbm, ⟨62, _⟩ => ⟨S_, .f32⟩
  | .hbm, ⟨63, _⟩ => ⟨S641024x128, .f32⟩
  | .hbm, ⟨64, _⟩ => ⟨S_, .i32⟩
  | .hbm, ⟨65, _⟩ => ⟨S_, .f32⟩
  | .hbm, ⟨66, _⟩ => ⟨S641024x128, .f32⟩
  | .hbm, ⟨67, _⟩ => ⟨S641024x1, .f32⟩
  | .hbm, ⟨68, _⟩ => ⟨S640000x1, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S384x256, .f32⟩
  | .local _ .vmem, ⟨7, _⟩ => ⟨S1x256, .f32⟩
  | .local _ .vmem, ⟨8, _⟩ => ⟨S256x1, .f32⟩
  | .local _ .vmem, ⟨9, _⟩ => ⟨S1x1, .f32⟩
  | .local _ .vmem, ⟨10, _⟩ => ⟨S2048x1, .f32⟩
  | .local _ .vmem, ⟨11, _⟩ => ⟨S2048x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v1 : Ref sig .tc := ⟨.hbm, 53, rfl⟩
abbrev main_v2 : Ref sig .tc := ⟨.hbm, 54, rfl⟩
abbrev main_v3 : Ref sig .tc := ⟨.hbm, 55, rfl⟩
abbrev main_v4 : Ref sig .tc := ⟨.hbm, 56, rfl⟩
abbrev main_v5 : Ref sig .tc := ⟨.hbm, 57, rfl⟩
abbrev main_c : Ref sig .tc := ⟨.hbm, 58, rfl⟩
abbrev main_call2_v0 : Ref sig .tc := ⟨.hbm, 59, rfl⟩
abbrev main_v6 : Ref sig .tc := ⟨.hbm, 60, rfl⟩
abbrev main_c_0 : Ref sig .tc := ⟨.hbm, 61, rfl⟩
abbrev main_call3_v0 : Ref sig .tc := ⟨.hbm, 62, rfl⟩
abbrev main_v7 : Ref sig .tc := ⟨.hbm, 63, rfl⟩
abbrev main_c_1 : Ref sig .tc := ⟨.hbm, 64, rfl⟩
abbrev main_call4_v0 : Ref sig .tc := ⟨.hbm, 65, rfl⟩
abbrev main_v8 : Ref sig .tc := ⟨.hbm, 66, rfl⟩
abbrev main_v9 : Ref sig .tc := ⟨.hbm, 67, rfl⟩
abbrev main_v10 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![313], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  transposes_S256x384_S384x256_1_0 : S256x384.Transposes [1, 0] S384x256
  transposes_S1x256_S256x1_1_0 : S1x256.Transposes [1, 0] S256x1
  shapeCasts_S256_S1x256 : S256.ShapeCasts S1x256
  shapeCasts_S1_S1x1 : S1.ShapeCasts S1x1
  pads_S640000x128_S641024x128_010240_000 : S640000x128.Pads (![0, 0] : Fin 2 → Nat) ![1024, 0] ![0, 0] S641024x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  concatenates_S2048x128_S2048x128_S2048x128_S2048x384_d1 : Shape.Concatenates [S2048x128, S2048x128, S2048x128] S2048x384 1
  bitsLt_bf16_f32 : FTy.bits .bf16 < FTy.bits .f32
  inb_S384x256_S384x256_0_0 : ∀ a, (![0, 0] : Fin 2 → Nat) a + S384x256.size a ≤ S384x256.size a
  h_S384x256 : 0 < S384x256.numel
  shapeCasts_S384x256_S384x256 : S384x256.ShapeCasts S384x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  slices_S641024x1_S640000x1_0_0 : S641024x1.Slices ![0, 0] S640000x1
  gather_S50000x128_S640000x1_S640000x128_1_0_n_n_0_1_1128_wf : GatherDims.WF S50000x128 S640000x1 S640000x128 [1] [0] [] [0] [] 1 ![1, 128]
  dot_S2048x384_S384x256_S2048x256_1_0_0_1_n_n_wf : DotDims.WF S2048x384 S384x256 S2048x256 [1] [0] [0] [1] [] []
  dot_S2048x256_S256x1_S2048x1_1_0_0_1_n_n_wf : DotDims.WF S2048x256 S256x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S641024x128.size a
  hwx0_0 : ∀ i : grid0.Coords, EltTy.bits .f32 = 32 ∨ (Rect.block (s := S641024x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S641024x128.size a
  hwx0_1 : ∀ i : grid0.Coords, EltTy.bits .f32 = 32 ∨ (Rect.block (s := S641024x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S641024x128.size a
  hwx0_2 : ∀ i : grid0.Coords, EltTy.bits .f32 = 32 ∨ (Rect.block (s := S641024x128) S2048x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x256.size a ≤ S384x256.size a
  hwx0_3 : ∀ i : grid0.Coords, EltTy.bits .f32 = 32 ∨ (Rect.block (s := S384x256) S384x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S256x1.size a
  hwx0_5 : ∀ i : grid0.Coords, EltTy.bits .f32 = 32 ∨ (Rect.block (s := S256x1) S256x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x1.size a ≤ S641024x1.size a
  hwx0_7 : ∀ i : grid0.Coords, EltTy.bits .f32 = 32 ∨ (Rect.block (s := S641024x1) S2048x1.size (cc0_transform_7 i) (hinb0_7 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S2048x384_S384x256_S2048x256_1_0_0_1_n_n : DotDims S2048x384 S384x256 S2048x256 where
  lhsContracting := [1]
  rhsContracting := [0]
  lhsNonContracting := [0]
  rhsNonContracting := [1]
  lhsBatch := []
  rhsBatch := []
  wf := dot_S2048x384_S384x256_S2048x256_1_0_0_1_n_n_wf
def dot_S2048x256_S256x1_S2048x1_1_0_0_1_n_n : DotDims S2048x256 S256x1 S2048x1 where
  lhsContracting := [1]
  rhsContracting := [0]
  lhsNonContracting := [0]
  rhsNonContracting := [1]
  lhsBatch := []
  rhsBatch := []
  wf := dot_S2048x256_S256x1_S2048x1_1_0_0_1_n_n_wf

abbrev win0_0 : Pipeline.Window sig grid0 :=
  Pipeline.Window.ofSpec (Memref.whole main_v6) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S384x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S256x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S2048x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x128 : Shape := ⟨2, ![50000, 128]⟩
abbrev S640000x128 : Shape := ⟨2, ![640000, 128]⟩
abbrev S640000 : Shape := ⟨1, ![640000]⟩
abbrev S256x384 : Shape := ⟨2, ![256, 384]⟩
abbrev S256 : Shape := ⟨1, ![256]⟩
abbrev S1x256 : Shape := ⟨2, ![1, 256]⟩
abbrev S1 : Shape := ⟨1, ![1]⟩
abbrev S_ : Shape := ⟨0, ![]⟩
abbrev S640000x1 : Shape := ⟨2, ![640000, 1]⟩
abbrev S640000x384 : Shape := ⟨2, ![640000, 384]⟩
abbrev S384x256 : Shape := ⟨2, ![384, 256]⟩
abbrev S640000x256 : Shape := ⟨2, ![640000, 256]⟩
abbrev S256x1 : Shape := ⟨2, ![256, 1]⟩
abbrev S1x1 : Shape := ⟨2, ![1, 1]⟩

abbrev nBuf : Space → Nat
  | .hbm => 40
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S640000x128, .f32⟩
  | .hbm, ⟨2, _⟩ => ⟨S640000, .i32⟩
  | .hbm, ⟨3, _⟩ => ⟨S640000, .i32⟩
  | .hbm, ⟨4, _⟩ => ⟨S256x384, .f32⟩
  | .hbm, ⟨5, _⟩ => ⟨S256, .f32⟩
  | .hbm, ⟨6, _⟩ => ⟨S1x256, .f32⟩
  | .hbm, ⟨7, _⟩ => ⟨S1, .f32⟩
  | .hbm, ⟨8, _⟩ => ⟨S_, .i32⟩
  | .hbm, ⟨9, _⟩ => ⟨S640000, .i32⟩
  | .hbm, ⟨10, _⟩ => ⟨S640000, .i1⟩
  | .hbm, ⟨11, _⟩ => ⟨S_, .i32⟩
  | .hbm, ⟨12, _⟩ => ⟨S640000, .i32⟩
  | .hbm, ⟨13, _⟩ => ⟨S640000, .i32⟩
  | .hbm, ⟨14, _⟩ => ⟨S640000, .i32⟩
  | .hbm, ⟨15, _⟩ => ⟨S640000x1, .i32⟩
  | .hbm, ⟨16, _⟩ => ⟨S640000x128, .f32⟩
  | .hbm, ⟨17, _⟩ => ⟨S_, .i32⟩
  | .hbm, ⟨18, _⟩ => ⟨S640000, .i32⟩
  | .hbm, ⟨19, _⟩ => ⟨S640000, .i1⟩
  | .hbm, ⟨20, _⟩ => ⟨S_, .i32⟩
  | .hbm, ⟨21, _⟩ => ⟨S640000, .i32⟩
  | .hbm, ⟨22, _⟩ => ⟨S640000, .i32⟩
  | .hbm, ⟨23, _⟩ => ⟨S640000, .i32⟩
  | .hbm, ⟨24, _⟩ => ⟨S640000x1, .i32⟩
  | .hbm, ⟨25, _⟩ => ⟨S640000x128, .f32⟩
  | .hbm, ⟨26, _⟩ => ⟨S640000x384, .f32⟩
  | .hbm, ⟨27, _⟩ => ⟨S384x256, .f32⟩
  | .hbm, ⟨28, _⟩ => ⟨S640000x256, .f32⟩
  | .hbm, ⟨29, _⟩ => ⟨S1x256, .f32⟩
  | .hbm, ⟨30, _⟩ => ⟨S640000x256, .f32⟩
  | .hbm, ⟨31, _⟩ => ⟨S640000x256, .f32⟩
  | .hbm, ⟨32, _⟩ => ⟨S_, .f32⟩
  | .hbm, ⟨33, _⟩ => ⟨S640000x256, .f32⟩
  | .hbm, ⟨34, _⟩ => ⟨S640000x256, .f32⟩
  | .hbm, ⟨35, _⟩ => ⟨S256x1, .f32⟩
  | .hbm, ⟨36, _⟩ => ⟨S640000x1, .f32⟩
  | .hbm, ⟨37, _⟩ => ⟨S1x1, .f32⟩
  | .hbm, ⟨38, _⟩ => ⟨S640000x1, .f32⟩
  | .hbm, ⟨39, _⟩ => ⟨S640000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_cst : Ref sig .tc := ⟨.hbm, 32, rfl⟩
abbrev main_call0_v0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x128_S640000x384_d1 : Shape.Concatenates [S640000x128, S640000x128, S640000x128] S640000x384 1
  transposes_S256x384_S384x256_1_0 : S256x384.Transposes [1, 0] S384x256
  bcast_S256_S1x256_1 : S256.BroadcastsInDim S1x256 (![1] : Fin 1 → Fin S1x256.rank)
  bcast_S1x256_S640000x256_0_1 : S1x256.BroadcastsInDim S640000x256 (![0, 1] : Fin 2 → Fin S640000x256.rank)
  bcast_S_S640000x256 : S_.BroadcastsInDim S640000x256 (![] : Fin 0 → Fin S640000x256.rank)
  transposes_S1x256_S256x1_1_0 : S1x256.Transposes [1, 0] S256x1
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  gather_S50000x128_S640000x1_S640000x128_1_0_n_n_0_1_1128_wf : GatherDims.WF S50000x128 S640000x1 S640000x128 [1] [0] [] [0] [] 1 ![1, 128]
  dot_S640000x384_S384x256_S640000x256_1_0_0_1_n_n_wf : DotDims.WF S640000x384 S384x256 S640000x256 [1] [0] [0] [1] [] []
  dot_S640000x256_S256x1_S640000x1_1_0_0_1_n_n_wf : DotDims.WF S640000x256 S256x1 S640000x1 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S640000x384_S384x256_S640000x256_1_0_0_1_n_n : DotDims S640000x384 S384x256 S640000x256 where
  lhsContracting := [1]
  rhsContracting := [0]
  lhsNonContracting := [0]
  rhsNonContracting := [1]
  lhsBatch := []
  rhsBatch := []
  wf := dot_S640000x384_S384x256_S640000x256_1_0_0_1_n_n_wf
def dot_S640000x256_S256x1_S640000x1_1_0_0_1_n_n : DotDims S640000x256 S256x1 S640000x1 where
  lhsContracting := [1]
  rhsContracting := [0]
  lhsNonContracting := [0]
  rhsNonContracting := [1]
  lhsBatch := []
  rhsBatch := []
  wf := dot_S640000x256_S256x1_S640000x1_1_0_0_1_n_n_wf

class Facts : Prop extends Facts₀ where

variable [Facts]
-- ==== Proof.InRange.lean ====
/-
  The precondition, read back: every source and destination index is a row of the node table the way numpy counts rows,
  that is, lies in [-50000, 50000).

  The printed precondition is a conjunction of "all" reductions; the last two say, entry by entry, index >= -50000 and
  index < 50000 for the two index arrays.  Also here, the converse reading of an "all": a reduction by "and" over an
  array of ones, started at one, is one.
-/
import proofs.«424977_j28286654611936_1_alg».proof.Defs
import proofs.«424977_j28286654611936_1_alg».proof.Proof.Gen.Pre_finite_inputs
import Idealize.ShloMosaic.Lib.ReduceAll

noncomputable section

namespace Cert.InRange

open Idealize.ShloMosaic

/-- A left fold by "and" from one over words that are all one is one. -/
theorem foldl_andi_one {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, _, hi, hf =>
    foldl_andi_one f l _ (IntOp.andi_eq_one.2 ⟨hi, hf a (List.mem_cons.2 (Or.inl rfl))⟩)
      (fun n hn => hf n (List.mem_cons.2 (Or.inr hn)))

/-- A reduction by "and", from one, of an array whose every entry is one, is one everywhere. -/
theorem reduce_andi_one {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1) (j : t.Idx) :
    Host.reduce IntOp.andi x init h hu j = 1#1 := by
  rw [Host.reduce_eq_foldl]
  exact foldl_andi_one x _ _ hinit (fun n _ => hx n)

instance : Subsingleton Cert.Pre_finite_inputs.S_.Idx := ⟨fun _ _ => funext fun d => d.elim0⟩

open Cert.Pre_finite_inputs in
/-- The two index conjuncts of the precondition, entry by entry. -/
theorem index_ranges {F : FTy → Type} [FloatOps F] (x0 : FVec F S50000x128 .f32) (x1 : FVec F S640000x128 .f32)
    (src dst : IVec S640000 32) (x4 : FVec F S256x384 .f32) (x5 : FVec F S256 .f32) (x6 : FVec F S1x256 .f32)
    (x7 : FVec F S1 .f32) (h : fn (F := F) x0 x1 src dst x4 x5 x6 x7 = fun _ => 1#1) :
    (∀ i : S640000.Idx, IntOp.cmpi .sge (src i) 4294917296#32 = 1#1 ∧ IntOp.cmpi .slt (src i) 50000#32 = 1#1)
      ∧ (∀ i : S640000.Idx, IntOp.cmpi .sge (dst i) 4294917296#32 = 1#1 ∧ IntOp.cmpi .slt (dst i) 50000#32 = 1#1) := by
  have e := congrFun h (fun a => a.elim0)
  unfold fn at e
  dsimp only at e
  unfold fn_part1 at e
  dsimp only at e
  unfold fn_part2 at e
  dsimp only at e
  obtain ⟨e35, e41⟩ := IntOp.andi_eq_one.1 e
  obtain ⟨-, e34⟩ := IntOp.andi_eq_one.1 e35
  refine ⟨fun i => ?_, fun i => ?_⟩
  · exact IntOp.andi_eq_one.1 (Host.reduce_andi_all _ _ _ _ _ e34 i)
  · exact IntOp.andi_eq_one.1 (Host.reduce_andi_all _ _ _ _ _ e41 i)

end Cert.InRange

end
-- ==== Proof.EdgeScore.lean ====
/-
  One edge's score, as a function of the arrays.

  Edge r has a feature row of 384 entries: the source node's 128 features, the destination node's 128 features and the
  edge's own 128, side by side.  The hidden layer is  h[r, k] = max (sum_j feat[r, j] * W[j, k] + beta[k]) 0  for the 256
  hidden units k, and the score is  sum_k h[r, k] * U[k, 0] + gamma.  Both programs compute exactly this, in this order
  of operations, so no law of the extended reals beyond the definition is needed; the zero of the max is kept as the
  f32 word both programs print.

  Also here: a concatenation of three 128-column arrays read at an entry, and the arithmetic of a wrapped index.
-/
import Idealize.ShloMosaic.Lib.ValueIdx
import Idealize.ShloMosaic.Lib.Pipeline.Value
import Idealize.ShloMosaic.Lib.Affine
import Idealize.ShloMosaic.PureOps.Ideal

noncomputable section

namespace Cert.EdgeScore

open Idealize.ShloMosaic Idealize.ShloMosaic.ValueIdx

/-- Entry j of row r of three 128-column arrays laid side by side. -/
def feat {α : Type} {R : Nat} (a b c : (⟨2, ![R, 128]⟩ : Shape).Idx → α) (r : Fin R) (j : Fin 384) : α :=
  if h1 : j.val < 128 then a (ix2 r ⟨j.val, h1⟩)
  else if h2 : j.val < 256 then b (ix2 r ⟨j.val - 128, by omega⟩)
  else c (ix2 r ⟨j.val - 256, by omega⟩)

/-- Hidden unit k of edge r: the affine form of the feature row, cut below at zero. -/
def hidden {R : Nat} (a b c : FVec Ideal ⟨2, ![R, 128]⟩ .f32) (W : FVec Ideal ⟨2, ![384, 256]⟩ .f32) (β : Fin 256 → EReal)
    (r : Fin R) (k : Fin 256) : EReal :=
  max ((∑ j : Fin 384, feat a b c r j * W (ix2 j k)) + β k) (Ideal.ofBits .f32 0x00000000#32)

/-- The score of edge r. -/
def score {R : Nat} (a b c : FVec Ideal ⟨2, ![R, 128]⟩ .f32) (W : FVec Ideal ⟨2, ![384, 256]⟩ .f32) (β : Fin 256 → EReal)
    (U : FVec Ideal ⟨2, ![256, 1]⟩ .f32) (γ : EReal) (r : Fin R) : EReal :=
  (∑ k : Fin 256, hidden a b c W β r k * U (ix2 k (0 : Fin 1))) + γ

/-- Three arrays of 128 columns joined along the columns, read at (r, j): the array whose span holds j, at the column
    counted from the start of that span. -/
theorem concat3_apply {α : Type} {R : Nat} (a b c : (⟨2, ![R, 128]⟩ : Shape).Idx → α)
    (h : Shape.Concatenates [(⟨2, ![R, 128]⟩ : Shape), ⟨2, ![R, 128]⟩, ⟨2, ![R, 128]⟩] ⟨2, ![R, 384]⟩ 1)
    (r : Fin R) (j : Fin 384) :
    concatenate (⟨2, ![R, 384]⟩ : Shape) 1 [⟨⟨2, ![R, 128]⟩, a⟩, ⟨⟨2, ![R, 128]⟩, b⟩, ⟨⟨2, ![R, 128]⟩, c⟩] h (ix2 r j)
      = feat a b c r j := by
  unfold feat
  by_cases h1 : j.val < 128
  · rw [dif_pos h1]
    exact concatenate_apply_piece (t := ⟨2, ![R, 384]⟩) 1 [⟨⟨2, ![R, 128]⟩, a⟩, ⟨⟨2, ![R, 128]⟩, b⟩, ⟨⟨2, ![R, 128]⟩, c⟩] h (ix2 r j) 0 (by show 0 < 3; omega) _ a rfl rfl 0 rfl (ix2 r ⟨j.val, h1⟩)
      (fun d hd => by
        match d with
        | ⟨0, _⟩ => rfl
        | ⟨1, _⟩ => exact absurd (Fin.ext rfl) hd)
      (Nat.zero_add _)
  · rw [dif_neg h1]
    by_cases h2 : j.val < 256
    · rw [dif_pos h2]
      exact concatenate_apply_piece (t := ⟨2, ![R, 384]⟩) 1 [⟨⟨2, ![R, 128]⟩, a⟩, ⟨⟨2, ![R, 128]⟩, b⟩, ⟨⟨2, ![R, 128]⟩, c⟩] h (ix2 r j) 1 (by show 1 < 3; omega) _ b rfl rfl 128 rfl (ix2 r ⟨j.val - 128, by omega⟩)
        (fun d hd => by
          match d with
          | ⟨0, _⟩ => rfl
          | ⟨1, _⟩ => exact absurd (Fin.ext rfl) hd)
        (by show 128 + (j.val - 128) = j.val; omega)
    · rw [dif_neg h2]
      exact concatenate_apply_piece (t := ⟨2, ![R, 384]⟩) 1 [⟨⟨2, ![R, 128]⟩, a⟩, ⟨⟨2, ![R, 128]⟩, b⟩, ⟨⟨2, ![R, 128]⟩, c⟩] h (ix2 r j) 2 (by show 2 < 3; omega) _ c rfl rfl 256 rfl (ix2 r ⟨j.val - 256, by omega⟩)
        (fun d hd => by
          match d with
          | ⟨0, _⟩ => rfl
          | ⟨1, _⟩ => exact absurd (Fin.ext rfl) hd)
        (by show 256 + (j.val - 256) = j.val; have := j.isLt; omega)

/-- A row index into 50000 rows the way numpy reads it: a negative word counts from the end. -/
def wrap (s : BitVec 32) : BitVec 32 :=
  Scalar.select (IntOp.cmpi .slt s 0#32) (IntOp.addi s 50000#32) s

/-- A word in [-50000, 50000), wrapped, is a row of the table: in [0, 49999]. -/
theorem wrap_in_range (s : BitVec 32) (h1 : IntOp.cmpi .sge s 4294917296#32 = 1#1) (h2 : IntOp.cmpi .slt s 50000#32 = 1#1) :
    IntOp.cmpi .sge (wrap s) 0#32 = 1#1 ∧ IntOp.cmpi .sle (wrap s) 49999#32 = 1#1 := by
  have e1 : (4294917296#32 : BitVec 32).toInt = -50000 := by decide
  have e2 : (50000#32 : BitVec 32).toInt = 50000 := by decide
  have e3 : (49999#32 : BitVec 32).toInt = 49999 := by decide
  have e0 : (0#32 : BitVec 32).toInt = 0 := by decide
  rw [IntOp.cmpi_sge, e1] at h1
  rw [IntOp.cmpi_slt, e2] at h2
  unfold wrap
  by_cases hn : IntOp.cmpi .slt s 0#32 = 1#1
  · rw [hn, select_one]
    have hn' := IntOp.cmpi_slt.1 hn
    rw [e0] at hn'
    have ha : (IntOp.addi s 50000#32).toInt = s.toInt + 50000 := by
      show (s + 50000#32).toInt = _
      rw [BitVec.toInt_add, e2, Int.bmod_def]
      split <;> omega
    rw [IntOp.cmpi_sge, IntOp.cmpi_sle, e0, e3, ha]
    omega
  · rw [eq_zero_of_ne_one hn, select_zero]
    have hn' : ¬ s.toInt < 0 := fun hlt => hn (IntOp.cmpi_slt.2 (by rw [e0]; exact hlt))
    rw [IntOp.cmpi_sge, IntOp.cmpi_sle, e0, e3]
    omega

end Cert.EdgeScore

end
-- ==== Proof.RefValue.lean ====
/-
  The reference's result, entry by entry, is the edge score.

  The reference gathers the two node rows, joins them with the edge row, and applies the two dense layers; read one
  operation at a time its result at entry (r, 0) is  sum_k max (sum_j feat[r, j] * W1T[j, k] + b1[k]) 0 * W2T[k, 0] + b2[0]
  over the gathered arrays.  The two gathers and the two transposes are left as the arrays they are; the concatenation
  is read by its span.
-/
import proofs.«424977_j28286654611936_1_alg».proof.Defs
import proofs.«424977_j28286654611936_1_alg».proof.Proof.Gen.ReferenceIdeal.Read
import proofs.«424977_j28286654611936_1_alg».proof.Proof.EdgeScore

noncomputable section

namespace Cert.ReferenceIdeal.RefValue

open Cert.ReferenceIdeal Cert.ReferenceIdeal.Gen Cert.ReferenceIdeal.Read
open Idealize.ShloMosaic Idealize.ShloMosaic.ValueIdx Cert.EdgeScore

variable (x0 : FVec Ideal S50000x128 .f32) (x1 : FVec Ideal S640000x128 .f32) (x2 x3 : IVec S640000 32)
  (x4 : FVec Ideal S256x384 .f32) (x5 : FVec Ideal S256 .f32) (x6 : FVec Ideal S1x256 .f32) (x7 : FVec Ideal S1 .f32)

/-- The joined feature array at (r, j). -/
theorem joined_apply (r : Fin 640000) (j : Fin 384) :
    val_main_v14 (F := Ideal) x0 x1 x2 x3 (ix2 r j)
      = feat (val_main_v6 (F := Ideal) x0 x2) (val_main_v13 (F := Ideal) x0 x3) x1 r j := by
  unfold val_main_v14
  exact concat3_apply _ _ _ _ r j

/-- The hidden layer at (r, k). -/
theorem hidden_apply (r : Fin 640000) (k : Fin 256) :
    val_main_v20 (F := Ideal) x0 x1 x2 x3 x4 x5 (ix2 r k)
      = hidden (val_main_v6 (F := Ideal) x0 x2) (val_main_v13 (F := Ideal) x0 x3) x1 (val_main_v15 (F := Ideal) x4)
          (fun k => x5 (ix1 k)) r k := by
  have el : ∀ l : Fin 384, lidx_main_v16 (ix2 r k) l = ix2 r l := fun l => funext fun a => by
    match a with
    | ⟨0, _⟩ => rfl
    | ⟨1, _⟩ => rfl
  have er : ∀ l : Fin 384, ridx_main_v16 (ix2 r k) l = ix2 l k := fun l => funext fun a => by
    match a with
    | ⟨0, _⟩ => rfl
    | ⟨1, _⟩ => rfl
  have eb : idx_main_v17 (idx_main_v18 (ix2 r k)) = ix1 k := funext fun a => by
    match a with
    | ⟨0, _⟩ => rfl
  rw [val_main_v20_apply, val_main_v19_apply, val_main_v16_apply, val_main_v18_apply, val_main_v17_apply,
    val_main_call0_v0_apply, val_main_call0_cst_apply, eb]
  simp only [el, er, joined_apply]
  rfl

/-- The reference's result at an entry is that edge's score. -/
theorem result_apply (i : S640000x1.Idx) :
    val_main_v25 (F := Ideal) x0 x1 x2 x3 x4 x5 x6 x7 i
      = score (val_main_v6 (F := Ideal) x0 x2) (val_main_v13 (F := Ideal) x0 x3) x1 (val_main_v15 (F := Ideal) x4)
          (fun k => x5 (ix1 k)) (val_main_v21 (F := Ideal) x6) (x7 (ix1 (0 : Fin 1))) (i 0) := by
  obtain ⟨r, q, rfl⟩ : ∃ (r : Fin 640000) (q : Fin 1), i = ix2 r q := ⟨i 0, i 1, eq_ix2 i⟩
  obtain rfl : q = 0 := Subsingleton.elim _ _
  have el : ∀ k : Fin 256, lidx_main_v22 (ix2 r (0 : Fin 1)) k = ix2 r k := fun k => funext fun a => by
    match a with
    | ⟨0, _⟩ => rfl
    | ⟨1, _⟩ => rfl
  have er : ∀ k : Fin 256, ridx_main_v22 (ix2 r (0 : Fin 1)) k = ix2 k (0 : Fin 1) := fun k => funext fun a => by
    match a with
    | ⟨0, _⟩ => rfl
    | ⟨1, _⟩ => rfl
  have eg : idx_main_v23 (idx_main_v24 (ix2 r (0 : Fin 1))) = ix1 (0 : Fin 1) := funext fun a => by
    match a with
    | ⟨0, _⟩ => rfl
  rw [val_main_v25_apply, val_main_v22_apply, val_main_v24_apply, val_main_v23_apply, eg]
  simp only [el, er, hidden_apply]
  rfl

end Cert.ReferenceIdeal.RefValue

end
-- ==== Proof.LibPlainDot.lean ====
/-
  The plain matrix product, rows times contraction by contraction times columns, read at an entry.

  For the dimension numbers "contract the left operand's axis 1 with the right operand's axis 0, no batch axis", the
  product of an M-by-K and a K-by-N matrix has at entry (p, q) the sum over k of left (p, k) times right (k, q).  At the
  exact values this holds of the host's product and of a kernel's product accumulated into a zero splat alike, on all
  extended reals, because only 0 + x = x is used.
-/
import Idealize.ShloMosaic.Lib.ValueIdx
import Idealize.ShloMosaic.Lib.KernelVsHost
import Idealize.ShloMosaic.PureOps.Ideal.Laws

noncomputable section

namespace Idealize.ShloMosaic.PlainDot

open Idealize.ShloMosaic.ValueIdx

variable {M K N : Nat} {φ₁ φ₂ : FTy}

/-- The left operand's index at output entry j and contraction step k: row of j, column k. -/
theorem lhsIdx_plain (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single rfl j _).trans hk

/-- The right operand's index at output entry j and contraction step k: row k, column of j. -/
theorem rhsIdx_plain (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ => rfl

/-- The host's plain product at an entry is the sum over the contraction of left (row, k) times right (k, column). -/
theorem dotGeneral_plain_apply (prec : Option ContractPrecision) (l : FVec Ideal ⟨2, ![M, K]⟩ φ₁)
    (r : FVec Ideal ⟨2, ![K, N]⟩ φ₂) (j : (⟨2, ![M, N]⟩ : Shape).Idx) :
    Host.dotGeneral (DotDims.plain M K N) prec l r j = ∑ k : Fin K, l (ix2 (j 0) k) * r (ix2 k (j 1)) := by
  simp only [Host.dotGeneral]
  rw [Ideal.dotGeneral_apply, ← Equiv.sum_comp (contrEquiv1 (DotDims.plain M K N) K rfl rfl).symm]
  refine Finset.sum_congr rfl fun k _ => ?_
  rw [lhsIdx_plain, rhsIdx_plain]
  rfl

/-- A kernel's plain product accumulated into a zero splat, at an entry: the same sum. -/
theorem matmul_zero_plain_apply (prec : Option ContractPrecision) (l : FVec Ideal ⟨2, ![M, K]⟩ φ₁)
    (r : FVec Ideal ⟨2, ![K, N]⟩ φ₂) (j : (⟨2, ![M, N]⟩ : Shape).Idx) :
    matmul (DotDims.plain M K N) prec l r (constant ⟨2, ![M, N]⟩ .f32 0x00000000#32) j
      = ∑ k : Fin K, l (ix2 (j 0) k) * r (ix2 k (j 1)) := by
  rw [matmul_zero_eq_dotGeneral, dotGeneral_plain_apply]

end Idealize.ShloMosaic.PlainDot
-- ==== Proof.Payload.lean ====
/-
  What the kernel body stores, entry by entry, is the edge score over the blocks it loaded.

  The body joins the three 2048-row feature blocks, multiplies by the 384-by-256 weights into a zero accumulator, adds
  the bias row, cuts below at zero, multiplies by the 256-by-1 weights into a zero accumulator and adds the one bias
  entry.  The changes of float format are identities on exact values, a product accumulated into zero is the plain sum
  over the contraction, and the one-row biases are read at row 0.
-/
import proofs.«424977_j28286654611936_1_alg».proof.Defs
import proofs.«424977_j28286654611936_1_alg».proof.Proof.Gen.KernelIdeal.Skeleton
import proofs.«424977_j28286654611936_1_alg».proof.Proof.EdgeScore
import proofs.«424977_j28286654611936_1_alg».proof.Proof.LibPlainDot
import Idealize.ShloMosaic.Lib.ValueLayout

noncomputable section

namespace Cert.KernelIdeal.Payload

open Cert.KernelIdeal Cert.KernelIdeal.Gen
open Idealize.ShloMosaic Idealize.ShloMosaic.ValueIdx Cert.EdgeScore

theorem dims_first : dot_S2048x384_S384x256_S2048x256_1_0_0_1_n_n = DotDims.plain 2048 384 256 := rfl
theorem dims_second : dot_S2048x256_S256x1_S2048x1_1_0_0_1_n_n = DotDims.plain 2048 256 1 := rfl

theorem ix2_zero {n0 n1 : Nat} (a : Fin n0) (b : Fin n1) : (ix2 a b) 0 = a := rfl
theorem ix2_one {n0 n1 : Nat} (a : Fin n0) (b : Fin n1) : (ix2 a b) 1 = b := rfl

/-- The stored block at row p is the score of row p of the loaded blocks. -/
theorem pay_apply (v0 v2 v4 : FVec Ideal S2048x128 .f32) (v8 : FVec Ideal S384x256 .f32) (v12 : FVec Ideal S1x256 .f32)
    (v19 : FVec Ideal S256x1 .f32) (v23 : FVec Ideal S1x1 .f32) (p : Fin 2048) :
    k0_pay1 (F := Ideal) v0 v2 v4 v8 v12 v19 v23 (ix2 p (0 : Fin 1))
      = score v0 v2 v4 v8 (fun k => v12 (ix2 (0 : Fin 1) k)) v19 (v23 (ix2 (0 : Fin 1) (0 : Fin 1))) p := by
  unfold k0_pay1
  simp only [shapeCast_self, dims_first, dims_second, addf_apply, PlainDot.matmul_zero_plain_apply, truncf_apply,
    maximumf_apply, broadcast_apply, broadcastTo_1b_ab_apply, ix2_zero, ix2_one, concat3_apply]
  rfl

end Cert.KernelIdeal.Payload

end
-- ==== Proof.LibAfterAppend.lean ====
/-
  Running two stretches of host operations one after the other.

  `StableHlo.after ops V` is the valuation of the buffers after the operations `ops` have run, in order, from the
  valuation `V`. Running a list that is two stretches joined is running the second stretch from what the first
  leaves. (The library has the one-operation steps `after_cons` and `after_nil`; this is their fold over the
  first stretch.) Useful wherever a program's host operations come as several stretches — a module-local function
  called from @main is a stretch of its own — and one wants to evaluate each stretch over a generic valuation.
-/
import Idealize.ShloMosaic.Lib.StableHlo.Run

namespace Cert.Lib

open Idealize.ShloMosaic Idealize.ShloMosaic.StableHlo

variable {τ : Topo} {sig : RefSig} {Val : EltTy → Type}

/-- The operations `ops₁ ++ ops₂` from `V` leave what `ops₂` leaves from what `ops₁` leaves from `V`. -/
theorem after_append (ops₁ ops₂ : List (HloOp τ sig Val)) (V : Valuation τ sig Val) :
    after (ops₁ ++ ops₂) V = after ops₂ (after ops₁ V) := by
  induction ops₁ generalizing V with
  | nil => rfl
  | cons op ops ih => exact ih (op.result V)

/-- Two stretches given as a list of lists, as a program's host operations after a launch are. -/
theorem after_flatten_pair (ops₁ ops₂ : List (HloOp τ sig Val)) (V : Valuation τ sig Val) :
    after (List.flatten [ops₁, ops₂]) V = after ops₂ (after ops₁ V) := by
  rw [List.flatten_cons, List.flatten_cons, List.flatten_nil, List.append_nil]
  exact after_append ops₁ ops₂ V

end Cert.Lib
-- ==== Proof.Arrays.lean ====
/-
  The arrays the pipelined call finds.

  Before the call the host takes the source and destination rows of the node table (a gather at the wrapped index, with
  a fill where the wrapped index misses the table), pads the three 640000-row feature arrays with 1024 zero rows,
  transposes the two weight matrices and recasts the two biases as one-row matrices.  Here each of those arrays is
  named as a function of the arguments, and read at an entry: a padded array at a row below 640000 is the array there;
  under the index range of the precondition the fill is never taken, so the taken rows are the gathered rows.
-/
import proofs.«424977_j28286654611936_1_alg».proof.Defs
import proofs.«424977_j28286654611936_1_alg».proof.Proof.Gen.KernelIdeal.Frame
import proofs.«424977_j28286654611936_1_alg».proof.Proof.EdgeScore
import proofs.«424977_j28286654611936_1_alg».proof.Proof.InRange
import proofs.«424977_j28286654611936_1_alg».proof.Proof.LibAfterAppend
import Idealize.ShloMosaic.Lib.StableHlo.Run
import Idealize.ShloMosaic.Lib.KernelVsHost

set_option maxRecDepth 16384

noncomputable section

namespace Cert.KernelIdeal.Arrays

open Cert.KernelIdeal Cert.KernelIdeal.Gen
open Idealize.ShloMosaic Idealize.ShloMosaic.TcCoe Idealize.SL.Sem Idealize.ShloMosaic.StableHlo
open Idealize.ShloMosaic.ValueIdx Cert.EdgeScore

/-- The wrapped indices as a column of start rows. -/
def idxCol (s : IVec S640000 32) : IVec S640000x1 32 :=
  broadcastInDim S640000x1 ![0] bcast_S640000_S640000x1_0
    (select (cmpi .slt s (broadcastInDim S640000 ![] bcast_S_S640000 (constantI S_ 32 0#32)))
      (addi s (broadcastInDim S640000 ![] bcast_S_S640000 (constantI S_ 32 50000#32))) s)

/-- The node rows at the wrapped indices. -/
def rows (x : FVec Ideal S50000x128 .f32) (s : IVec S640000 32) : FVec Ideal S640000x128 .f32 :=
  Host.gather gather_S50000x128_S640000x1_S640000x128_1_0_n_n_0_1_1128 x (idxCol s)

/-- Per row of a column of start rows: is the start row in [0, 49999]? -/
def inTableOf (col : IVec S640000x1 32) : IVec S640000 1 :=
  Host.reduce IntOp.andi
    (andi (cmpi .sge col (broadcastInDim S640000x1 ![] bcast_S_S640000x1 (constantI S_ 32 0#32)))
      (cmpi .sle col (broadcastInDim S640000x1 ![0, 1] bcast_S1x1_S640000x1_0_1
        (broadcastInDim S1x1 ![1] bcast_S1_S1x1_1 (constantI S1 32 49999#32)))))
    (constantI S_ 1 1#1) reducesTo_S640000x1_S640000_d1 h_S_

/-- Per edge: does the wrapped index name a row of the table? -/
def inTable (s : IVec S640000 32) : IVec S640000 1 := inTableOf (idxCol s)

/-- The taken rows: the gathered row where the index names one, a fill elsewhere. -/
def taken (x : FVec Ideal S50000x128 .f32) (s : IVec S640000 32) : FVec Ideal S640000x128 .f32 :=
  select (broadcastInDim S640000x128 ![0] bcast_S640000_S640000x128_0 (inTable s)) (rows x s)
    (broadcastInDim S640000x128 ![] bcast_S_S640000x128 (constant S_ .f32 0x7FC00000#32))

/-- 1024 rows of a converted integer scalar appended. -/
def paddedWith (y : FVec Ideal S640000x128 .f32) (z : IVec S_ 32) : FVec Ideal S641024x128 .f32 :=
  pad S641024x128 ![0, 0] ![1024, 0] ![0, 0] y (sitofp .f32 z : FVec Ideal S_ .f32)
    pads_S640000x128_S641024x128_010240_000 h_S_

/-- 1024 rows of the converted integer zero appended. -/
def padded (y : FVec Ideal S640000x128 .f32) : FVec Ideal S641024x128 .f32 :=
  paddedWith y (constantI S_ 32 0#32)

variable (m : (ℓ : Loc nD τ sig) → Buf (Elt Ideal) ℓ)

/-! ## The arrays at the call -/

/-! ### The host operations before the call, stretch by stretch

The operations before the call come as eight stretches (each called function is a stretch of its own).  A stretch is
evaluated once, over any contents of the buffers it reads; a buffer a stretch does not write keeps its contents. -/

/-- The proof that no operation of a stretch writes a given buffer: each operation writes one buffer, another one. -/
macro "not_written" : tactic => `(tactic| (
  refine List.forall_iff_forall_mem.mp ?_
  simp only [hostOps0, hostOps0_1, hostOps0_2, hostOps0_3, hostOps0_4, hostOps0_5, hostOps0_6, hostOps0_7, List.Forall,
    List.take_succ_cons, List.take_zero, List.drop_succ_cons, List.drop_zero, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-- The contents at the call: the eight stretches one after the other. -/
theorem V0_chain (c : Dev nD) : V0 m c
    = after hostOps0_7 (after hostOps0_6 (after hostOps0_5 (after hostOps0_4 (after hostOps0_3 (after hostOps0_2
        (after hostOps0_1 (after hostOps0 (fun b => m (c, b))))))))) := by
  show after (List.flatten [hostOps0, hostOps0_1, hostOps0_2, hostOps0_3, hostOps0_4, hostOps0_5, hostOps0_6, hostOps0_7]) _ = _
  simp only [List.flatten_cons, List.flatten_nil, List.append_nil, Cert.Lib.after_append]

section Stretches

variable (M : Valuation τ sig (Elt Ideal))

/-! A take is 23 operations: 8 make the column of wrapped start rows, 10 test it against the table's rows, 5 gather and
select.  Each part is evaluated over any contents of the buffers it reads. -/

/-- The take, cut in its three parts. -/
theorem split_src : after (hostOps0 (F := Ideal)) M
    = after (hostOps0.drop 18) (after ((hostOps0.drop 8).take 10) (after (hostOps0.take 8) M)) := by
  rw [← Cert.Lib.after_append, ← Cert.Lib.after_append]
  exact congrArg (fun L => after L M) (by
    simp only [hostOps0, List.take_succ_cons, List.take_zero, List.drop_succ_cons, List.drop_zero, List.cons_append,
      List.nil_append])

/-- Part one: the column of wrapped start rows. -/
theorem col_src : (after (hostOps0.take 8) M (Proc.devRef .tc main_call0_v5) : S640000x1.Idx → BitVec 32)
    = idxCol (M (Proc.devRef .tc main_arg2)) := by
  simp only [hostOps0, List.take_succ_cons, List.take_zero]
  after_results
  simp only [cast_eq]
  rfl

/-- Part two: the range test of a column of start rows. -/
theorem test_src : (after ((hostOps0.drop 8).take 10) M (Proc.devRef .tc main_call0_v12) : S640000.Idx → BitVec 1)
    = inTableOf (M (Proc.devRef .tc main_call0_v5)) := by
  simp only [hostOps0, List.drop_succ_cons, List.drop_zero, List.take_succ_cons, List.take_zero]
  after_results
  simp only [cast_eq]
  rfl

/-- Part three: the gather at the start rows, and the select by the test. -/
theorem sel_src : (after (hostOps0.drop 18) M (Proc.devRef .tc main_v0) : S640000x128.Idx → EReal)
    = select (broadcastInDim S640000x128 ![0] bcast_S640000_S640000x128_0 (M (Proc.devRef .tc main_call0_v12) : S640000.Idx → BitVec 1))
        (Host.gather gather_S50000x128_S640000x1_S640000x128_1_0_n_n_0_1_1128
          (M (Proc.devRef .tc main_arg0) : S50000x128.Idx → EReal) (M (Proc.devRef .tc main_call0_v5) : S640000x1.Idx → BitVec 32))
        (broadcastInDim S640000x128 ![] bcast_S_S640000x128 (constant (F := Ideal) S_ .f32 0x7FC00000#32)) := by
  simp only [hostOps0, List.drop_succ_cons, List.drop_zero]
  after_results
  simp only [cast_eq]

/-- The first take: the rows at the first index array. -/
theorem take_src : (after hostOps0 M (Proc.devRef .tc main_v0) : S640000x128.Idx → EReal)
    = taken (M (Proc.devRef .tc main_arg0)) (M (Proc.devRef .tc main_arg2)) := by
  rw [split_src, sel_src, test_src,
    after_of_forall_not_mem (b := Proc.devRef .tc main_call0_v5) ((hostOps0.drop 8).take 10) _ (by not_written),
    after_of_forall_not_mem (b := Proc.devRef .tc main_arg0) ((hostOps0.drop 8).take 10) _ (by not_written),
    after_of_forall_not_mem (b := Proc.devRef .tc main_arg0) (hostOps0.take 8) _ (by not_written),
    col_src]
  rfl

/-- The second take, cut in its three parts. -/
theorem split_dst : after (hostOps0_1 (F := Ideal)) M
    = after (hostOps0_1.drop 18) (after ((hostOps0_1.drop 8).take 10) (after (hostOps0_1.take 8) M)) := by
  rw [← Cert.Lib.after_append, ← Cert.Lib.after_append]
  exact congrArg (fun L => after L M) (by
    simp only [hostOps0_1, List.take_succ_cons, List.take_zero, List.drop_succ_cons, List.drop_zero, List.cons_append,
      List.nil_append])

/-- Part one of the second take. -/
theorem col_dst : (after (hostOps0_1.take 8) M (Proc.devRef .tc main_call1_v5) : S640000x1.Idx → BitVec 32)
    = idxCol (M (Proc.devRef .tc main_arg3)) := by
  simp only [hostOps0_1, List.take_succ_cons, List.take_zero]
  after_results
  simp only [cast_eq]
  rfl

/-- Part two of the second take. -/
theorem test_dst : (after ((hostOps0_1.drop 8).take 10) M (Proc.devRef .tc main_call1_v12) : S640000.Idx → BitVec 1)
    = inTableOf (M (Proc.devRef .tc main_call1_v5)) := by
  simp only [hostOps0_1, List.drop_succ_cons, List.drop_zero, List.take_succ_cons, List.take_zero]
  after_results
  simp only [cast_eq]
  rfl

/-- Part three of the second take. -/
theorem sel_dst : (after (hostOps0_1.drop 18) M (Proc.devRef .tc main_v1) : S640000x128.Idx → EReal)
    = select (broadcastInDim S640000x128 ![0] bcast_S640000_S640000x128_0 (M (Proc.devRef .tc main_call1_v12) : S640000.Idx → BitVec 1))
        (Host.gather gather_S50000x128_S640000x1_S640000x128_1_0_n_n_0_1_1128
          (M (Proc.devRef .tc main_arg0) : S50000x128.Idx → EReal) (M (Proc.devRef .tc main_call1_v5) : S640000x1.Idx → BitVec 32))
        (broadcastInDim S640000x128 ![] bcast_S_S640000x128 (constant (F := Ideal) S_ .f32 0x7FC00000#32)) := by
  simp only [hostOps0_1, List.drop_succ_cons, List.drop_zero]
  after_results
  simp only [cast_eq]

/-- The second take: the rows at the second index array. -/
theorem take_dst : (after hostOps0_1 M (Proc.devRef .tc main_v1) : S640000x128.Idx → EReal)
    = taken (M (Proc.devRef .tc main_arg0)) (M (Proc.devRef .tc main_arg3)) := by
  rw [split_dst, sel_dst, test_dst,
    after_of_forall_not_mem (b := Proc.devRef .tc main_call1_v5) ((hostOps0_1.drop 8).take 10) _ (by not_written),
    after_of_forall_not_mem (b := Proc.devRef .tc main_arg0) ((hostOps0_1.drop 8).take 10) _ (by not_written),
    after_of_forall_not_mem (b := Proc.devRef .tc main_arg0) (hostOps0_1.take 8) _ (by not_written),
    col_dst]
  rfl

/-- The first pad. -/
theorem pad_src : (after hostOps0_3 M (Proc.devRef .tc main_v6) : S641024x128.Idx → EReal)
    = paddedWith (M (Proc.devRef .tc main_v0)) (M (Proc.devRef .tc main_c)) := by
  after_results
  simp only [cast_eq]
  rfl

/-- The second pad. -/
theorem pad_dst : (after hostOps0_5 M (Proc.devRef .tc main_v7) : S641024x128.Idx → EReal)
    = paddedWith (M (Proc.devRef .tc main_v1)) (M (Proc.devRef .tc main_c_0)) := by
  after_results
  simp only [cast_eq]
  rfl

/-- The integer zero the first pad converts. -/
theorem zero_src : (after hostOps0_2 M (Proc.devRef .tc main_c) : S_.Idx → BitVec 32) = constantI S_ 32 0#32 := by
  after_results

/-- The integer zero the second pad converts. -/
theorem zero_dst : (after hostOps0_4 M (Proc.devRef .tc main_c_0) : S_.Idx → BitVec 32) = constantI S_ 32 0#32 := by
  after_results

end Stretches

theorem V_src (c : Dev nD) : (V m c main_v6 : S641024x128.Idx → EReal)
    = padded (taken (m ((c : Thread nD τ).loc main_arg0)) (m ((c : Thread nD τ).loc main_arg2))) := by
  show (V0 m c (Proc.devRef .tc main_v6) : S641024x128.Idx → EReal) = _
  rw [V0_chain,
    after_of_forall_not_mem (b := Proc.devRef .tc main_v6) hostOps0_7 _ (by not_written),
    after_of_forall_not_mem (b := Proc.devRef .tc main_v6) hostOps0_6 _ (by not_written),
    after_of_forall_not_mem (b := Proc.devRef .tc main_v6) hostOps0_5 _ (by not_written),
    after_of_forall_not_mem (b := Proc.devRef .tc main_v6) hostOps0_4 _ (by not_written),
    pad_src, zero_src,
    after_of_forall_not_mem (b := Proc.devRef .tc main_v0) hostOps0_2 _ (by not_written),
    after_of_forall_not_mem (b := Proc.devRef .tc main_v0) hostOps0_1 _ (by not_written),
    take_src]
  rfl

theorem V_dst (c : Dev nD) : (V m c main_v7 : S641024x128.Idx → EReal)
    = padded (taken (m ((c : Thread nD τ).loc main_arg0)) (m ((c : Thread nD τ).loc main_arg3))) := by
  show (V0 m c (Proc.devRef .tc main_v7) : S641024x128.Idx → EReal) = _
  rw [V0_chain,
    after_of_forall_not_mem (b := Proc.devRef .tc main_v7) hostOps0_7 _ (by not_written),
    after_of_forall_not_mem (b := Proc.devRef .tc main_v7) hostOps0_6 _ (by not_written),
    pad_dst, zero_dst,
    after_of_forall_not_mem (b := Proc.devRef .tc main_v1) hostOps0_4 _ (by not_written),
    after_of_forall_not_mem (b := Proc.devRef .tc main_v1) hostOps0_3 _ (by not_written),
    after_of_forall_not_mem (b := Proc.devRef .tc main_v1) hostOps0_2 _ (by not_written),
    take_dst,
    after_of_forall_not_mem (b := Proc.devRef .tc main_arg0) hostOps0 _ (by not_written),
    after_of_forall_not_mem (b := Proc.devRef .tc main_arg3) hostOps0 _ (by not_written)]
  rfl

theorem V_edge (c : Dev nD) : (V m c main_v8 : S641024x128.Idx → EReal)
    = padded (m ((c : Thread nD τ).loc main_arg1)) := by
  dsimp only [V, V0]
  simp only [hostOps0, hostOps0_1, hostOps0_2, hostOps0_3, hostOps0_4, hostOps0_5, hostOps0_6, hostOps0_7,
    List.flatten_cons, List.flatten_nil, List.append_nil, List.cons_append, List.nil_append]
  after_results
  rfl

theorem V_w1 (c : Dev nD) : (V m c main_v2 : S384x256.Idx → EReal)
    = transpose S384x256 [1, 0] (m ((c : Thread nD τ).loc main_arg4)) transposes_S256x384_S384x256_1_0 := by
  dsimp only [V, V0]
  simp only [hostOps0, hostOps0_1, hostOps0_2, hostOps0_3, hostOps0_4, hostOps0_5, hostOps0_6, hostOps0_7,
    List.flatten_cons, List.flatten_nil, List.append_nil, List.cons_append, List.nil_append]
  after_results

theorem V_w2 (c : Dev nD) : (V m c main_v3 : S256x1.Idx → EReal)
    = transpose S256x1 [1, 0] (m ((c : Thread nD τ).loc main_arg6)) transposes_S1x256_S256x1_1_0 := by
  dsimp only [V, V0]
  simp only [hostOps0, hostOps0_1, hostOps0_2, hostOps0_3, hostOps0_4, hostOps0_5, hostOps0_6, hostOps0_7,
    List.flatten_cons, List.flatten_nil, List.append_nil, List.cons_append, List.nil_append]
  after_results

theorem V_b1 (c : Dev nD) : (V m c main_v4 : S1x256.Idx → EReal)
    = shapeCast S1x256 (m ((c : Thread nD τ).loc main_arg5)) shapeCasts_S256_S1x256 := by
  dsimp only [V, V0]
  simp only [hostOps0, hostOps0_1, hostOps0_2, hostOps0_3, hostOps0_4, hostOps0_5, hostOps0_6, hostOps0_7,
    List.flatten_cons, List.flatten_nil, List.append_nil, List.cons_append, List.nil_append]
  after_results
  rfl

theorem V_b2 (c : Dev nD) : (V m c main_v5 : S1x1.Idx → EReal)
    = shapeCast S1x1 (m ((c : Thread nD τ).loc main_arg7)) shapeCasts_S1_S1x1 := by
  dsimp only [V, V0]
  simp only [hostOps0, hostOps0_1, hostOps0_2, hostOps0_3, hostOps0_4, hostOps0_5, hostOps0_6, hostOps0_7,
    List.flatten_cons, List.flatten_nil, List.append_nil, List.cons_append, List.nil_append]
  after_results
  rfl

/-! ## Read at an entry -/

/-- A padded array at a row below 640000 is the array at that row. -/
theorem padded_apply (y : FVec Ideal S640000x128 .f32) (r : Fin 640000) (j : Fin 128) :
    padded y (ix2 (⟨r.val, by omega⟩ : Fin 641024) j) = y (ix2 r j) := by
  unfold padded paddedWith
  exact pad_apply_of_inside ![0, 0] ![1024, 0] ![0, 0] y (sitofp .f32 (constantI S_ 32 0#32) : FVec Ideal S_ .f32)
    pads_S640000x128_S641024x128_010240_000 h_S_ (ix2 (⟨r.val, by omega⟩ : Fin 641024) j) (ix2 r j) (fun a => by
      match a with
      | ⟨0, _⟩ => show r.val = 0 + r.val * (0 + 1); omega
      | ⟨1, _⟩ => show j.val = 0 + j.val * (0 + 1); omega)

/-- The joined feature row of the padded arrays, at a row below 640000, is the joined row of the arrays. -/
theorem feat_padded (a b c : FVec Ideal S640000x128 .f32) (r : Fin 640000) (j : Fin 384) :
    feat (padded a) (padded b) (padded c) (⟨r.val, by omega⟩ : Fin 641024) j = feat a b c r j := by
  unfold feat
  by_cases h1 : j.val < 128
  · rw [dif_pos h1, dif_pos h1]; exact padded_apply a r _
  · rw [dif_neg h1, dif_neg h1]
    by_cases h2 : j.val < 256
    · rw [dif_pos h2, dif_pos h2]; exact padded_apply b r _
    · rw [dif_neg h2, dif_neg h2]; exact padded_apply c r _

/-- So the score over the padded arrays, at a row below 640000, is the score over the arrays. -/
theorem score_padded (a b c : FVec Ideal S640000x128 .f32) (W : FVec Ideal S384x256 .f32) (β : Fin 256 → EReal)
    (U : FVec Ideal S256x1 .f32) (γ : EReal) (r : Fin 640000) :
    score (padded a) (padded b) (padded c) W β U γ (⟨r.val, by omega⟩ : Fin 641024) = score a b c W β U γ r := by
  unfold score Cert.EdgeScore.hidden
  simp only [feat_padded]

/-- The start row of edge q is the wrapped index of edge q. -/
theorem idxCol_apply (s : IVec S640000 32) (q : S640000x1.Idx) : idxCol s q = wrap (s (ix1 (q 0))) := by
  unfold idxCol
  rw [broadcastInDim_apply _ bcast_S640000_S640000x1_0 _ q (ix1 (q 0)) (fun a => by
    match a with
    | ⟨0, _⟩ => show (q 0).val = if (640000 : Nat) = 1 then 0 else (q 0).val; rw [if_neg (by decide)])]
  rfl

/-- With the index in [-50000, 50000) the two range tests on the wrapped index both hold. -/
theorem tests_apply (s : IVec S640000 32)
    (hs : ∀ i : S640000.Idx, IntOp.cmpi .sge (s i) 4294917296#32 = 1#1 ∧ IntOp.cmpi .slt (s i) 50000#32 = 1#1)
    (q : S640000x1.Idx) :
    (andi (cmpi .sge (idxCol s) (broadcastInDim S640000x1 ![] bcast_S_S640000x1 (constantI S_ 32 0#32)))
      (cmpi .sle (idxCol s) (broadcastInDim S640000x1 ![0, 1] bcast_S1x1_S640000x1_0_1
        (broadcastInDim S1x1 ![1] bcast_S1_S1x1_1 (constantI S1 32 49999#32))))) q = 1#1 := by
  show IntOp.andi (IntOp.cmpi .sge (idxCol s q) 0#32) (IntOp.cmpi .sle (idxCol s q) 49999#32) = 1#1
  rw [idxCol_apply]
  exact IntOp.andi_eq_one.2 (wrap_in_range _ (hs _).1 (hs _).2)

/-- With every index in [-50000, 50000) the wrapped index names a row, the fill is never taken, and the taken rows are
    the gathered rows. -/
theorem taken_eq_rows (x : FVec Ideal S50000x128 .f32) (s : IVec S640000 32)
    (hs : ∀ i : S640000.Idx, IntOp.cmpi .sge (s i) 4294917296#32 = 1#1 ∧ IntOp.cmpi .slt (s i) 50000#32 = 1#1) :
    taken x s = rows x s := by
  have hin : ∀ i : S640000.Idx, inTable s i = 1#1 := fun i => by
    unfold inTable inTableOf
    exact Cert.InRange.reduce_andi_one _ _ reducesTo_S640000x1_S640000_d1 h_S_ (tests_apply s hs) rfl i
  funext j
  unfold taken
  rw [select_apply, broadcastInDim_apply _ bcast_S640000_S640000x128_0 (inTable s) j (ix1 (j 0)) (fun a => by
    match a with
    | ⟨0, _⟩ => show (j 0).val = if (640000 : Nat) = 1 then 0 else (j 0).val; rw [if_neg (by decide)]), hin, select_one]

end Cert.KernelIdeal.Arrays

end
-- ==== Proof.KernelValue.lean ====
/-
  The kernel's result array, entry by entry, is the edge score.

  The pipelined call runs the body at 313 points; point t loads rows [2048 t, 2048 t + 2048) of the three padded feature
  arrays and the whole weight and bias arrays, and writes back rows [2048 t, 2048 t + 2048) of the 641024-row output.
  So what each point writes back is a block of ONE function of the arrays at the call, the score row by row; the 313
  blocks tile the output; the output array therefore ends at that function, and the slice after the call keeps its first
  640000 rows.  Rewriting the arrays at the call as functions of the arguments, and using the index range of the
  precondition to drop the fill of the two takes, gives the score over the gathered node rows, the edge rows, the
  transposed weights and the biases.
-/
import proofs.«424977_j28286654611936_1_alg».proof.Defs
import proofs.«424977_j28286654611936_1_alg».proof.Proof.Gen.KernelIdeal.Frame
import proofs.«424977_j28286654611936_1_alg».proof.Proof.EdgeScore
import proofs.«424977_j28286654611936_1_alg».proof.Proof.Payload
import proofs.«424977_j28286654611936_1_alg».proof.Proof.Arrays
import Idealize.ShloMosaic.Lib.Pipeline.Value
import Idealize.ShloMosaic.Lib.ValueLayout

set_option maxRecDepth 16384

noncomputable section

namespace Cert.EdgeScore

open Idealize.ShloMosaic Idealize.ShloMosaic.ValueIdx

/-- The score of a row depends on that row of the three feature arrays only. -/
theorem score_congr {R R' : Nat} (a b c : FVec Ideal ⟨2, ![R, 128]⟩ .f32) (a' b' c' : FVec Ideal ⟨2, ![R', 128]⟩ .f32)
    (W W' : FVec Ideal ⟨2, ![384, 256]⟩ .f32) (β β' : Fin 256 → EReal) (U U' : FVec Ideal ⟨2, ![256, 1]⟩ .f32) (γ γ' : EReal)
    (r : Fin R) (r' : Fin R')
    (ha : ∀ j : Fin 128, a (ix2 r j) = a' (ix2 r' j)) (hb : ∀ j : Fin 128, b (ix2 r j) = b' (ix2 r' j))
    (hc : ∀ j : Fin 128, c (ix2 r j) = c' (ix2 r' j)) (hW : W = W') (hβ : β = β') (hU : U = U') (hγ : γ = γ') :
    score a b c W β U γ r = score a' b' c' W' β' U' γ' r' := by
  subst hW hβ hU hγ
  have hf : ∀ j : Fin 384, feat a b c r j = feat a' b' c' r' j := fun j => by
    unfold feat
    by_cases h1 : j.val < 128
    · rw [dif_pos h1, dif_pos h1]; exact ha _
    · rw [dif_neg h1, dif_neg h1]
      by_cases h2 : j.val < 256
      · rw [dif_pos h2, dif_pos h2]; exact hb _
      · rw [dif_neg h2, dif_neg h2]; exact hc _
  unfold score Cert.EdgeScore.hidden
  simp only [hf]

end Cert.EdgeScore

namespace Cert.KernelIdeal.KernelValue

open Cert.KernelIdeal Cert.KernelIdeal.Gen
open Idealize.ShloMosaic Idealize.ShloMosaic.TcCoe Idealize.SL.Sem
open Idealize.ShloMosaic.Pipeline (Dat)
open Idealize.ShloMosaic.ValueIdx Cert.EdgeScore Cert.KernelIdeal.Arrays Cert.KernelIdeal.Payload

variable (m : (ℓ : Loc nD τ sig) → Buf (Elt Ideal) ℓ) (ρ : Dev nD → PrngReg)

theorem hz : (![0, 0] : Fin 2 → Nat) = fun _ => 0 := funext fun a => by fin_cases a <;> rfl

/-! ## The arrays at the call, by their literal types -/

abbrev aS (c : Dev nD) : FVec Ideal S641024x128 .f32 := V m c main_v6
abbrev aD (c : Dev nD) : FVec Ideal S641024x128 .f32 := V m c main_v7
abbrev aE (c : Dev nD) : FVec Ideal S641024x128 .f32 := V m c main_v8
abbrev aW1 (c : Dev nD) : FVec Ideal S384x256 .f32 := V m c main_v2
abbrev aB1 (c : Dev nD) : FVec Ideal S1x256 .f32 := V m c main_v4
abbrev aW2 (c : Dev nD) : FVec Ideal S256x1 .f32 := V m c main_v3
abbrev aB2 (c : Dev nD) : FVec Ideal S1x1 .f32 := V m c main_v5

/-- The output array as ONE function of the arrays at the call: row R holds the score of row R. -/
def G (c : Dev nD) : S641024x1.Idx → EReal := fun i =>
  score (aS m c) (aD m c) (aE m c) (aW1 m c) (fun k => aB1 m c (ix2 (0 : Fin 1) k)) (aW2 m c)
    (aB2 m c (ix2 (0 : Fin 1) (0 : Fin 1))) (i 0)

/-! ## The index maps, decided over the 313 points -/

theorem idx_facts : ∀ t : Fin cfg0.N,
    win0_7.index t (0 : Fin 2) = t.val ∧ win0_7.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-! ## The whole-array windows: the block IS the array -/

theorem blk_w1 (c : Dev nD) (t : Fin cfg0.N) : (iblk m c 3 t : S384x256.Idx → EReal) = aW1 m c := by
  obtain ⟨-, -, -, -, -, -, -, -, e0, e1, -⟩ := idx_facts t
  funext y
  show V m c main_v2 (((cfg0.win 3).blk t).view.emb y) = V m c main_v2 y
  refine congrArg (V m c main_v2) (funext fun a => Fin.ext ?_)
  match a with
  | ⟨0, _⟩ => show win0_3.index t (0 : Fin 2) * 384 + 1 * (y 0).val = (y 0).val; omega
  | ⟨1, _⟩ => show win0_3.index t (1 : Fin 2) * 256 + 1 * (y 1).val = (y 1).val; omega

theorem blk_b1 (c : Dev nD) (t : Fin cfg0.N) : (iblk m c 4 t : S1x256.Idx → EReal) = aB1 m c := by
  obtain ⟨-, -, -, -, -, -, -, -, -, -, e0, e1, -⟩ := idx_facts t
  funext y
  show V m c main_v4 (((cfg0.win 4).blk t).view.emb y) = V m c main_v4 y
  refine congrArg (V m c main_v4) (funext fun a => Fin.ext ?_)
  match a with
  | ⟨0, _⟩ => show win0_4.index t (0 : Fin 2) * 1 + 1 * (y 0).val = (y 0).val; omega
  | ⟨1, _⟩ => show win0_4.index t (1 : Fin 2) * 256 + 1 * (y 1).val = (y 1).val; omega

theorem blk_w2 (c : Dev nD) (t : Fin cfg0.N) : (iblk m c 5 t : S256x1.Idx → EReal) = aW2 m c := by
  obtain ⟨-, -, -, -, -, -, -, -, -, -, -, -, e0, e1, -⟩ := idx_facts t
  funext y
  show V m c main_v3 (((cfg0.win 5).blk t).view.emb y) = V m c main_v3 y
  refine congrArg (V m c main_v3) (funext fun a => Fin.ext ?_)
  match a with
  | ⟨0, _⟩ => show win0_5.index t (0 : Fin 2) * 256 + 1 * (y 0).val = (y 0).val; omega
  | ⟨1, _⟩ => show win0_5.index t (1 : Fin 2) * 1 + 1 * (y 1).val = (y 1).val; omega

theorem blk_b2 (c : Dev nD) (t : Fin cfg0.N) : (iblk m c 6 t : S1x1.Idx → EReal) = aB2 m c := by
  obtain ⟨-, -, -, -, -, -, -, -, -, -, -, -, -, -, e0, e1⟩ := idx_facts t
  funext y
  show V m c main_v5 (((cfg0.win 6).blk t).view.emb y) = V m c main_v5 y
  refine congrArg (V m c main_v5) (funext fun a => Fin.ext ?_)
  match a with
  | ⟨0, _⟩ => show win0_6.index t (0 : Fin 2) * 1 + 1 * (y 0).val = (y 0).val; omega
  | ⟨1, _⟩ => show win0_6.index t (1 : Fin 2) * 1 + 1 * (y 1).val = (y 1).val; omega

/-! ## The row windows: row p of the block is row 2048 t + p of the array -/

/-- Row p of point t's output block, as a row of the output array. -/
def rowOf (t : Fin cfg0.N) (p : Fin 2048) : Fin 641024 :=
  ⟨t.val * 2048 + p.val, by have := t.isLt; have hN : cfg0.N = 313 := N_0; have := p.isLt; show _ < 641024; omega⟩

theorem blk_src (c : Dev nD) (t : Fin cfg0.N) (p : Fin 2048) (j : Fin 128) :
    (iblk m c 0 t : S2048x128.Idx → EReal) (ix2 p j) = aS m c (ix2 (rowOf t p) j) := by
  obtain ⟨-, -, e0, e1, -⟩ := idx_facts t
  show V m c main_v6 (((cfg0.win 0).blk t).view.emb (ix2 p j)) = V m c main_v6 (ix2 (rowOf t p) j)
  refine congrArg (V m c main_v6) (funext fun a => Fin.ext ?_)
  match a with
  | ⟨0, _⟩ => show win0_0.index t (0 : Fin 2) * 2048 + 1 * p.val = t.val * 2048 + p.val; omega
  | ⟨1, _⟩ => show win0_0.index t (1 : Fin 2) * 128 + 1 * j.val = j.val; omega

theorem blk_dst (c : Dev nD) (t : Fin cfg0.N) (p : Fin 2048) (j : Fin 128) :
    (iblk m c 1 t : S2048x128.Idx → EReal) (ix2 p j) = aD m c (ix2 (rowOf t p) j) := by
  obtain ⟨-, -, -, -, e0, e1, -⟩ := idx_facts t
  show V m c main_v7 (((cfg0.win 1).blk t).view.emb (ix2 p j)) = V m c main_v7 (ix2 (rowOf t p) j)
  refine congrArg (V m c main_v7) (funext fun a => Fin.ext ?_)
  match a with
  | ⟨0, _⟩ => show win0_1.index t (0 : Fin 2) * 2048 + 1 * p.val = t.val * 2048 + p.val; omega
  | ⟨1, _⟩ => show win0_1.index t (1 : Fin 2) * 128 + 1 * j.val = j.val; omega

theorem blk_edge (c : Dev nD) (t : Fin cfg0.N) (p : Fin 2048) (j : Fin 128) :
    (iblk m c 2 t : S2048x128.Idx → EReal) (ix2 p j) = aE m c (ix2 (rowOf t p) j) := by
  obtain ⟨-, -, -, -, -, -, e0, e1, -⟩ := idx_facts t
  show V m c main_v8 (((cfg0.win 2).blk t).view.emb (ix2 p j)) = V m c main_v8 (ix2 (rowOf t p) j)
  refine congrArg (V m c main_v8) (funext fun a => Fin.ext ?_)
  match a with
  | ⟨0, _⟩ => show win0_2.index t (0 : Fin 2) * 2048 + 1 * p.val = t.val * 2048 + p.val; omega
  | ⟨1, _⟩ => show win0_2.index t (1 : Fin 2) * 128 + 1 * j.val = j.val; omega

/-- The output block's row p sits at row 2048 t + p of the output array. -/
theorem emb_out (t : Fin cfg0.N) (p : Fin 2048) :
    (((cfg0.win 7).blk t).view.emb (ix2 p (0 : Fin 1)) : S641024x1.Idx) = ix2 (rowOf t p) (0 : Fin 1) := by
  obtain ⟨e0, e1, -⟩ := idx_facts t
  funext a
  apply Fin.ext
  match a with
  | ⟨0, _⟩ => show win0_7.index t (0 : Fin 2) * 2048 + 1 * p.val = t.val * 2048 + p.val; omega
  | ⟨1, _⟩ => show win0_7.index t (1 : Fin 2) * 1 + 1 * 0 = 0; omega

/-! ## What a point writes back, the cover, the final array -/

/-- The body's stored block at point t, row by row, is G at the rows the block sits on. -/
theorem block_eq (c : Dev nD) (t : Fin cfg0.N) :
    (k0_pay1 (F := Ideal) (iblk m c 0 t) (iblk m c 1 t) (iblk m c 2 t) (iblk m c 3 t) (iblk m c 4 t) (iblk m c 5 t)
        (iblk m c 6 t) : S2048x1.Idx → EReal)
      = fun y : S2048x1.Idx => G m c (((cfg0.win 7).blk t).view.emb y) := by
  funext y
  obtain ⟨p, q, rfl⟩ : ∃ (p : Fin 2048) (q : Fin 1), y = ix2 p q := ⟨y 0, y 1, eq_ix2 y⟩
  obtain rfl : q = 0 := Subsingleton.elim _ _
  show _ = G m c (((cfg0.win 7).blk t).view.emb (ix2 p (0 : Fin 1)))
  rw [emb_out]
  refine (pay_apply (iblk m c 0 t) (iblk m c 1 t) (iblk m c 2 t) (iblk m c 3 t) (iblk m c 4 t) (iblk m c 5 t) (iblk m c 6 t) p).trans ?_
  unfold G
  exact score_congr _ _ _ _ _ _ _ _ _ _ _ _ _ _ _ _ (blk_src m c t p) (blk_dst m c t p) (blk_edge m c t p) (blk_w1 m c t)
    (funext fun k => congrFun (blk_b1 m c t) _) (blk_w2 m c t) (congrFun (blk_b2 m c t) _)

/-- WHAT POINT t WRITES BACK is block t of G. -/
theorem flushed_eq (c : Dev nD) (t : Fin cfg0.N) :
    (dats m 0 c).flushed 7 t = ((cfg0.win 7).blk t).view.read (Elt Ideal) (G m c) := by
  show (cfg0.win 7).cut (grid0.coords t) ((dats m 0 c).after 7 t) = _
  rw [after0_7]
  unfold out0_7
  rw [View.canon_unit_zero hz]
  simp only [View.ld_unit_zero (S := S2048x128) hz, View.ld_unit_zero (S := S384x256) hz, View.ld_unit_zero (S := S1x256) hz,
    View.ld_unit_zero (S := S256x1) hz, View.ld_unit_zero (S := S1x1) hz]
  exact block_eq m c t

/-- An index of the output array is in point t's block iff each coordinate is in the block's range on its axis. -/
theorem mem_blk (t : Fin cfg0.N) (i : S641024x1.Idx) :
    i ∈ ((cfg0.win 7).blk t).view.set ↔ ∀ a : Fin 2, win0_7.index t a * S2048x1.size a ≤ (i a).val
      ∧ (i a).val < win0_7.index t a * S2048x1.size a + S2048x1.size a := by
  show i ∈ ((View.whole main_v9).slice (win0_7.rect t)).set ↔ _
  rw [View.set_slice_whole, Rect.mem_set_unit]
  exact Iff.rfl

/-- Every row of the output is in the block of the point its row number over 2048 names. -/
theorem cover (i : S641024x1.Idx) : ∃ t : Fin cfg0.N, (cfg0.win 7).flush t = true ∧ i ∈ ((cfg0.win 7).blk t).view.set := by
  have hi0 : (i 0).val < 641024 := (i 0).isLt
  have hi1 : (i 1).val < 1 := (i 1).isLt
  have hN : cfg0.N = 313 := N_0
  let t : Fin cfg0.N := ⟨(i 0).val / 2048, by omega⟩
  obtain ⟨e0, e1, -⟩ := idx_facts t
  have ht : t.val = (i 0).val / 2048 := rfl
  refine ⟨t, flush0_7 t, ?_⟩
  rw [mem_blk]
  intro a
  match a with
  | ⟨0, _⟩ => show win0_7.index t (0 : Fin 2) * 2048 ≤ (i 0).val ∧ (i 0).val < win0_7.index t (0 : Fin 2) * 2048 + 2048; omega
  | ⟨1, _⟩ => show win0_7.index t (1 : Fin 2) * 1 ≤ (i 1).val ∧ (i 1).val < win0_7.index t (1 : Fin 2) * 1 + 1; omega

/-- THE OUTPUT ARRAY after the call is G. -/
theorem final (c : Dev nD) : (dats m 0 c).arrAt 7 cfg0.N = G m c :=
  (dats m 0 c).arrAt_eq_of_cover 7 (G m c) (fun t _ => flushed_eq m c t) cover

/-! ## After the call: the first 640000 rows -/

/-- The program's result is the output array's first 640000 rows. -/
theorem result_eq (r : PUnit × MemSt nD τ sig (Elt Ideal))
    (h : Pipeline.FramePost cfgs (dats m) 0 (Pipeline.afterTail₀ cfgs (dats m) 0 (V0 m) [hostOps1]) r) (c : Dev nD) :
    r.2.mem ((c : Thread nD τ).loc main_v10)
      = extractStridedSlice S640000x1 ![0, 0] (G m c) slices_S641024x1_S640000x1_0_0 := by
  refine ((h c).2 main_v10 (Pipeline.mem_restRefs_of main_v10 (by decide) (by decide))).trans ?_
  unfold Pipeline.afterTail₀
  show StableHlo.after hostOps1 _ (Proc.devRef .tc main_v10) = _
  after_results
  refine congrArg (fun X : S641024x1.Idx → EReal => extractStridedSlice S640000x1 ![0, 0] X slices_S641024x1_S640000x1_0_0) ?_
  exact (Pipeline.withArrays_arr spec0 launch0.win.arr_inj c (V0 m c) (fun w => (dats m 0 c).arrAt w cfg0.N) 7).trans (final m c)

/-- The result at entry (r, 0) is the score of row r over the arrays at the call. -/
theorem slice_apply (c : Dev nD) (r : Fin 640000) :
    extractStridedSlice S640000x1 ![0, 0] (G m c) slices_S641024x1_S640000x1_0_0 (ix2 r (0 : Fin 1))
      = score (aS m c) (aD m c) (aE m c) (aW1 m c) (fun k => aB1 m c (ix2 (0 : Fin 1) k)) (aW2 m c)
          (aB2 m c (ix2 (0 : Fin 1) (0 : Fin 1))) (⟨r.val, by omega⟩ : Fin 641024) :=
  extractStridedSlice_apply _ (G m c) slices_S641024x1_S640000x1_0_0 (ix2 r (0 : Fin 1))
    (ix2 (⟨r.val, by omega⟩ : Fin 641024) (0 : Fin 1)) (fun a => by
      match a with
      | ⟨0, _⟩ => show r.val = 0 + r.val; omega
      | ⟨1, _⟩ => show 0 = 0 + 0; rfl)

/-! ## In the arguments -/

/-- The edge score over the gathered node rows, the edge rows, the transposed weights and the biases. -/
def res (x0 : FVec Ideal S50000x128 .f32) (x1 : FVec Ideal S640000x128 .f32) (x2 x3 : IVec S640000 32)
    (x4 : FVec Ideal S256x384 .f32) (x5 : FVec Ideal S256 .f32) (x6 : FVec Ideal S1x256 .f32) (x7 : FVec Ideal S1 .f32) :
    S640000x1.Idx → EReal := fun i =>
  score (rows x0 x2) (rows x0 x3) x1 (transpose S384x256 [1, 0] x4 transposes_S256x384_S384x256_1_0)
    (fun k => x5 (ix1 k)) (transpose S256x1 [1, 0] x6 transposes_S1x256_S256x1_1_0) (x7 (ix1 (0 : Fin 1))) (i 0)

/-- Under the index ranges of the precondition the program's result is `res` of the arguments. -/
theorem slice_eq_res (c : Dev nD)
    (hs : ∀ i : S640000.Idx, IntOp.cmpi .sge (m ((c : Thread nD τ).loc main_arg2) i) 4294917296#32 = 1#1
      ∧ IntOp.cmpi .slt (m ((c : Thread nD τ).loc main_arg2) i) 50000#32 = 1#1)
    (hd : ∀ i : S640000.Idx, IntOp.cmpi .sge (m ((c : Thread nD τ).loc main_arg3) i) 4294917296#32 = 1#1
      ∧ IntOp.cmpi .slt (m ((c : Thread nD τ).loc main_arg3) i) 50000#32 = 1#1) :
    extractStridedSlice S640000x1 ![0, 0] (G m c) slices_S641024x1_S640000x1_0_0
      = res (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  funext i
  obtain ⟨r, q, rfl⟩ : ∃ (r : Fin 640000) (q : Fin 1), i = ix2 r q := ⟨i 0, i 1, eq_ix2 i⟩
  obtain rfl : q = 0 := Subsingleton.elim _ _
  rw [slice_apply]
  unfold res
  have eS : aS m c = padded (rows (m ((c : Thread nD τ).loc main_arg0)) (m ((c : Thread nD τ).loc main_arg2))) := by
    rw [← taken_eq_rows _ _ hs]; exact V_src m c
  have eD : aD m c = padded (rows (m ((c : Thread nD τ).loc main_arg0)) (m ((c : Thread nD τ).loc main_arg3))) := by
    rw [← taken_eq_rows _ _ hd]; exact V_dst m c
  have eE : aE m c = padded (m ((c : Thread nD τ).loc main_arg1)) := V_edge m c
  have eW1 : aW1 m c = transpose S384x256 [1, 0] (m ((c : Thread nD τ).loc main_arg4)) transposes_S256x384_S384x256_1_0 := V_w1 m c
  have eW2 : aW2 m c = transpose S256x1 [1, 0] (m ((c : Thread nD τ).loc main_arg6)) transposes_S1x256_S256x1_1_0 := V_w2 m c
  have eB1 : ∀ k : Fin 256, aB1 m c (ix2 (0 : Fin 1) k) = m ((c : Thread nD τ).loc main_arg5) (ix1 k) := fun k => by
    rw [show aB1 m c = _ from V_b1 m c]; exact shapeCast_a_1a_apply _ _ _ _
  have eB2 : aB2 m c (ix2 (0 : Fin 1) (0 : Fin 1)) = m ((c : Thread nD τ).loc main_arg7) (ix1 (0 : Fin 1)) := by
    rw [show aB2 m c = _ from V_b2 m c]; exact shapeCast_a_1a_apply _ _ _ _
  rw [eS, eD, eE, eW1, eW2, eB2]
  simp only [eB1]
  exact score_padded _ _ _ _ _ _ _ r

/-! ## The run -/

/-- Under the index ranges of the precondition: every weakly fair execution of the program ends with the result at
    `res` of the arguments as launched, and the arguments unchanged. -/
theorem run
    (hs : ∀ (c : Dev nD) (i : S640000.Idx), IntOp.cmpi .sge (m ((c : Thread nD τ).loc main_arg2) i) 4294917296#32 = 1#1
      ∧ IntOp.cmpi .slt (m ((c : Thread nD τ).loc main_arg2) i) 50000#32 = 1#1)
    (hd : ∀ (c : Dev nD) (i : S640000.Idx), IntOp.cmpi .sge (m ((c : Thread nD τ).loc main_arg3) i) 4294917296#32 = 1#1
      ∧ IntOp.cmpi .slt (m ((c : Thread nD τ).loc main_arg3) i) 50000#32 = 1#1) :
    θ_run defs (onTc (τ := τ) (main (F := Ideal))) ⟨m, fun _ => 0, ρ⟩ fun r => ∀ c : Dev nD,
      r.2.mem ((c : Thread nD τ).loc main_v10)
          = res (m ((c : Thread nD τ).loc main_arg0)) (m ((c : Thread nD τ).loc main_arg1)) (m ((c : Thread nD τ).loc main_arg2))
              (m ((c : Thread nD τ).loc main_arg3)) (m ((c : Thread nD τ).loc main_arg4)) (m ((c : Thread nD τ).loc main_arg5))
              (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(result_eq m r h c).trans (slice_eq_res m c (hs c) (hd c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.KernelValue

end
-- ==== Proof.lean ====
/-
  The score of every edge of a graph: the kernel against its reference, over the extended reals.

  Both programs compute, for each of 640000 edges r,
      score[r] = sum_k max (sum_j feat[r, j] * W1[k, j] + b1[k]) 0 * W2[0, k] + b2[0],
  where feat[r, :] is the source node's row, the destination node's row and the edge's row side by side (384 entries),
  the node rows being rows src[r] and dst[r] of the node table, a negative index counting from the end.

  The reference gathers, joins and applies the two dense layers on the whole arrays.  The kernel takes the node rows on
  the host (with a fill where an index misses the table), pads the three feature arrays to a whole number of 2048-row
  blocks, runs the two layers block by block in a pipelined call, and keeps the first 640000 rows.  The two sides use the
  same sums in the same order, so they agree on all extended reals; what differs is the treatment of an index outside
  [-50000, 50000): the reference's gather clamps it while the kernel's take fills the row.  The precondition therefore
  carries, beside the finiteness of the float inputs, that every entry of src and dst lies in [-50000, 50000), the range
  in which the reference's own indexing is defined; the float conjuncts are never used.

  The frames of the two kernel programs are generated; the reference's frame is its generated run with the result
  dropped; the ideal pass rewrote nothing.
-/
import proofs.«424977_j28286654611936_1_alg».proof.Defs
import proofs.«424977_j28286654611936_1_alg».proof.Proof.Gen.Kernel
import proofs.«424977_j28286654611936_1_alg».proof.Proof.Gen.Kernel.Skeleton
import proofs.«424977_j28286654611936_1_alg».proof.Proof.Gen.Kernel.Launch
import proofs.«424977_j28286654611936_1_alg».proof.Proof.Gen.Kernel.Points
import proofs.«424977_j28286654611936_1_alg».proof.Proof.Gen.Kernel.Frame
import proofs.«424977_j28286654611936_1_alg».proof.Proof.Gen.KernelIdeal
import proofs.«424977_j28286654611936_1_alg».proof.Proof.Gen.KernelIdeal.Skeleton
import proofs.«424977_j28286654611936_1_alg».proof.Proof.Gen.KernelIdeal.Launch
import proofs.«424977_j28286654611936_1_alg».proof.Proof.Gen.KernelIdeal.Points
import proofs.«424977_j28286654611936_1_alg».proof.Proof.Gen.KernelIdeal.Frame
import proofs.«424977_j28286654611936_1_alg».proof.Proof.Gen.ReferenceIdeal
import proofs.«424977_j28286654611936_1_alg».proof.Proof.Gen.ReferenceIdeal.Run
import proofs.«424977_j28286654611936_1_alg».proof.Proof.Gen.ReferenceIdeal.Read
import proofs.«424977_j28286654611936_1_alg».proof.Proof.Gen.Pre_finite_inputs
import proofs.«424977_j28286654611936_1_alg».proof.Proof.InRange
import proofs.«424977_j28286654611936_1_alg».proof.Proof.RefValue
import proofs.«424977_j28286654611936_1_alg».proof.Proof.KernelValue
import Idealize.ShloMosaic.Adequacy
import Idealize.ShloMosaic.Init

noncomputable section

namespace Cert.Proof

open Idealize.ShloMosaic Idealize.SL.Sem

/-- The reference's result is the same function of the arguments as the kernel's: entry by entry the edge score over
    the same gathered rows, transposed weights and biases. -/
theorem reference_eq_res (x0 : FVec Ideal Cert.ReferenceIdeal.S50000x128 .f32) (x1 : FVec Ideal Cert.ReferenceIdeal.S640000x128 .f32)
    (x2 x3 : IVec Cert.ReferenceIdeal.S640000 32) (x4 : FVec Ideal Cert.ReferenceIdeal.S256x384 .f32)
    (x5 : FVec Ideal Cert.ReferenceIdeal.S256 .f32) (x6 : FVec Ideal Cert.ReferenceIdeal.S1x256 .f32)
    (x7 : FVec Ideal Cert.ReferenceIdeal.S1 .f32) :
    Cert.ReferenceIdeal.Read.val_main_v25 (F := Ideal) x0 x1 x2 x3 x4 x5 x6 x7
      = Cert.KernelIdeal.KernelValue.res x0 x1 x2 x3 x4 x5 x6 x7 := by
  funext i
  rw [Cert.ReferenceIdeal.RefValue.result_apply]
  rfl

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments, under the precondition, both programs end with the edge scores. -/
theorem algebraic : Cert.algebraic_KernelIdeal_ReferenceIdeal := by
  intro m ρ m' ρ' hpre hagree
  have hr := fun c => Cert.InRange.index_ranges _ _ _ _ _ _ _ _ (hpre c)
  refine ⟨_, Cert.KernelIdeal.KernelValue.run m ρ (fun c => (hr c).1) (fun c => (hr c).2), ?_⟩
  refine (θ_run Cert.ReferenceIdeal.defs _ _).mono (fun _ h c => ⟨?_, (h c).2⟩)
    (Cert.ReferenceIdeal.Value.run (F := Ideal) m' ρ')
  obtain ⟨e0, e1, e2, e3, e4, e5, e6, e7⟩ := hagree c
  rw [(h c).1, Cert.ReferenceIdeal.Read.val_main_v25_eq, reference_eq_res, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
